-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x256 : Shape := ⟨2, ![524288, 256]⟩
abbrev S_ : Shape := ⟨0, ![]⟩

class Facts : Prop where
  bcast_S_S524288x256 : S_.BroadcastsInDim S524288x256 (![] : Fin 0 → Fin S524288x256.rank)
  reducesTo_S524288x256_S_d0_1 : S524288x256.ReducesTo [0, 1] S_
  h_S_ : 0 < S_.numel

variable [Facts]

def fn {F : FTy → Type} [FloatOps F] (main_arg0 : FVec F S524288x256 .f32) : IVec S_ 1 :=
  let main_v0 : FVec F S524288x256 .f32 := Host.absf main_arg0
  let main_cst : FVec F S_ .f32 := constant S_ .f32 0x7F800000#32
  let main_v1 : FVec F S524288x256 .f32 := broadcastInDim S524288x256 ![] bcast_S_S524288x256 main_cst
  let main_v2 : IVec S524288x256 1 := cmpf .olt main_v0 main_v1
  let main_c : IVec S_ 1 := constantI S_ 1 1#1
  let main_v3 : IVec S_ 1 := (fun x v => Host.reduce IntOp.andi x v reducesTo_S524288x256_S_d0_1 h_S_) main_v2 main_c
  main_v3
-- ==== Kernel.lean ====
abbrev S524288x256 : Shape := ⟨2, ![524288, 256]⟩
abbrev S1x256 : Shape := ⟨2, ![1, 256]⟩
abbrev S4096x256 : Shape := ⟨2, ![4096, 256]⟩
abbrev S256 : Shape := ⟨1, ![256]⟩

abbrev nBuf : Space → Nat
  | .hbm => 3
  | .vmem => 8
  | .smem => 0
  | _ => 0

abbrev bufTy : (tb : Table) → Fin (tcTables nBuf tb) → BufTy
  | .hbm, ⟨0, _⟩ => ⟨S524288x256, .f32⟩
  | .hbm, ⟨1, _⟩ => ⟨S1x256, .f32⟩
  | .hbm, ⟨2, _⟩ => ⟨S524288x256, .f32⟩
  | .local _ .vmem, ⟨0, _⟩ => ⟨S4096x256, .f32⟩
  | .local _ .vmem, ⟨1, _⟩ => ⟨S4096x256, .f32⟩
  | .local _ .vmem, ⟨2, _⟩ => ⟨S1x256, .f32⟩
  | .local _ .vmem, ⟨3, _⟩ => ⟨S4096x256, .f32⟩
  | .local _ .vmem, ⟨4, _⟩ => ⟨S4096x256, .f32⟩
  | .local _ .vmem, ⟨5, _⟩ => ⟨S1x256, .f32⟩
  | .local _ .vmem, ⟨6, _⟩ => ⟨S4096x256, .f32⟩
  | .local _ .vmem, ⟨7, _⟩ => ⟨S4096x256, .f32⟩
  | _, _ => ⟨S524288x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4096x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S4096x256_S4096x256_0_0 : ∀ a, (![0, 0] : Fin 2 → Nat) a + S4096x256.size a ≤ S4096x256.size a
  h_S4096x256 : 0 < S4096x256.numel
  reduces_S4096x256_S256 : S4096x256.Reduces [0] S256
  shapeCasts_S256_S1x256 : S256.ShapeCasts S1x256
  broadcasts_S1x256_S4096x256 : S1x256.Broadcasts S4096x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S524288x256.size a
  hwx0_0 : ∀ i : grid0.Coords, EltTy.bits .f32 = 32 ∨ (Rect.block (s := S524288x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S524288x256.size a
  hwx1_0 : ∀ i : grid1.Coords, EltTy.bits .f32 = 32 ∨ (Rect.block (s := S524288x256) S4096x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x256.size a ≤ S524288x256.size a
  hwx1_2 : ∀ i : grid1.Coords, EltTy.bits .f32 = 32 ∨ (Rect.block (s := S524288x256) S4096x256.size (cc1_transform_2 i) (hinb1_2 i)).WholeWords (EltTy.packing .f32)

variable [Facts₀]

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S4096x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S524288x256 : Shape := ⟨2, ![524288, 256]⟩
abbrev S_ : Shape := ⟨0, ![]⟩
abbrev S256 : Shape := ⟨1, ![256]⟩
abbrev S1x256 : Shape := ⟨2, ![1, 256]⟩

abbrev nBuf : Space → Nat
  | .hbm => 8
  | .vmem => 0
  | .smem => 0
  | _ => 0

abbrev bufTy : (tb : Table) → Fin (tcTables nBuf tb) → BufTy
  | .hbm, ⟨0, _⟩ => ⟨S524288x256, .f32⟩
  | .hbm, ⟨1, _⟩ => ⟨S524288x256, .f32⟩
  | .hbm, ⟨2, _⟩ => ⟨S_, .f32⟩
  | .hbm, ⟨3, _⟩ => ⟨S256, .f32⟩
  | .hbm, ⟨4, _⟩ => ⟨S256, .f32⟩
  | .hbm, ⟨5, _⟩ => ⟨S1x256, .f32⟩
  | .hbm, ⟨6, _⟩ => ⟨S524288x256, .f32⟩
  | .hbm, ⟨7, _⟩ => ⟨S524288x256, .f32⟩
  | _, _ => ⟨S524288x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]

class Facts₀ : Prop where
  reducesTo_S524288x256_S256_d0 : S524288x256.ReducesTo [0] S256
  h_S_ : 0 < S_.numel
  bcast_S256_S1x256_1 : S256.BroadcastsInDim S1x256 (![1] : Fin 1 → Fin S1x256.rank)
  bcast_S1x256_S524288x256_0_1 : S1x256.BroadcastsInDim S524288x256 (![0, 1] : Fin 2 → Fin S524288x256.rank)

variable [Facts₀]

class Facts : Prop extends Facts₀ where

variable [Facts]
-- ==== Proof.Scale.lean ====
/-
  The second region: every 4096-row block of the first operand is multiplied, entry by entry, by the reciprocal
  square root of the second operand's one row, read at the entry's column. The 128 blocks tile the 524288 rows
  (block `t` holds rows `4096 t … 4096 t + 4095`, all 256 columns) and every point writes its block back, so the
  result array ends as ONE function of the two operand arrays as the region finds them:
  `out (p, q) = a (p, q) · rsqrt (n (0, q))`.
-/
import proofs.«148555_j38027640438785_1_alg».proof.Proof.Gen.KernelIdeal.Frame
import Idealize.ShloMosaic.Lib.Pipeline.Value
import Idealize.ShloMosaic.Lib.ValueIdx
import Idealize.ShloMosaic.Lib.ValueLayout

noncomputable section

namespace Cert.KernelIdeal.Scale

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

theorem offs_zero : (![0, 0] : Fin 2 → Nat) = fun _ => 0 := funext fun a => by fin_cases a <;> rfl

/-- The whole result as a function of the two operand arrays: each entry of `a` times the reciprocal square root
    of the entry of `n`'s one row in the same column. -/
def scaleOf (a : Vec F S524288x256 .f32) (n : Vec F S1x256 .f32) : Vec F S524288x256 .f32 :=
  fun i => FloatOps.mulf (a i) (FloatOps.rsqrt (n (ix2 (0 : Fin 1) (i 1))))

/-- The body's one stored value at row `r`, column `q` of a block: the block's entry times the reciprocal square
    root of the row vector's entry at column `q` (the row vector broadcast over the 4096 rows). -/
theorem stored_apply (n : Vec F S1x256 .f32) (a : Vec F S4096x256 .f32) (r : Fin 4096) (q : Fin 256) :
    k1_pay1 n a (ix2 r q) = FloatOps.mulf (a (ix2 r q)) (FloatOps.rsqrt (n (ix2 (0 : Fin 1) q))) := by
  unfold k1_pay1
  show FloatOps.mulf (a (ix2 r q))
    (broadcastTo S4096x256 (rsqrt (shapeCast S1x256 n shapeCasts_S1x256_S1x256)) broadcasts_S1x256_S4096x256 (ix2 r q)) = _
  rw [broadcastTo_1b_ab_apply, shapeCast_self]
  rfl

/-- The same at any index of the block. -/
theorem stored_at (n : Vec F S1x256 .f32) (a : Vec F S4096x256 .f32) (y : S4096x256.Idx) :
    k1_pay1 n a y = FloatOps.mulf (a y) (FloatOps.rsqrt (n (ix2 (0 : Fin 1) (y 1)))) := by
  obtain ⟨r, q, rfl⟩ : ∃ (r : Fin 4096) (q : Fin 256), y = ix2 r q := ⟨y 0, y 1, eq_ix2 y⟩
  exact stored_apply n a r q

/-- Where the blocks sit, decided over the 128 points: the first operand's block moves with the result's, the
    second operand's is always its one block, and the result's block `t` is block row `t`, block column 0. -/
theorem idx_facts : ∀ t : Fin cfg1.N,
    win1_0.index t (0 : Fin 2) = win1_2.index t (0 : Fin 2) ∧ win1_0.index t (1 : Fin 2) = win1_2.index t (1 : Fin 2)
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `scaleOf` of the operand arrays as the region finds them. -/
theorem flushed_eq (c : Dev nD) (t : Fin cfg1.N) :
    (dat1 V c).flushed 2 t = ((cfg1.win 2).blk t).view.read (Elt F) (scaleOf (V c main_arg0) (V c main_v0)) := by
  show (cfg1.win 2).cut (grid1.coords t) ((dat1 V c).after 2 t) = _
  rw [after1_2]
  unfold out1_2
  rw [View.canon_unit_zero offs_zero]
  simp only [View.ld_unit_zero (S := S4096x256) offs_zero, View.ld_unit_zero (S := S1x256) offs_zero]
  obtain ⟨e0, e1, e2, e3, e4, e5⟩ := idx_facts t
  funext j
  show k1_pay1 (iblk1 V c 1 t) (iblk1 V c 0 t) j = _
  refine (stored_at (iblk1 V c 1 t) (iblk1 V c 0 t) j).trans ?_
  show FloatOps.mulf (V c main_arg0 (((cfg1.win 0).blk t).view.emb j))
      (FloatOps.rsqrt (V c main_v0 (((cfg1.win 1).blk t).view.emb (ix2 (0 : Fin 1) (j 1)))))
    = FloatOps.mulf (V c main_arg0 (((cfg1.win 2).blk t).view.emb j))
      (FloatOps.rsqrt (V c main_v0 (ix2 (0 : Fin 1) ((((cfg1.win 2).blk t).view.emb j) 1))))
  have h0 : ((cfg1.win 0).blk t).view.emb j = ((cfg1.win 2).blk t).view.emb j := by
    funext a; apply Fin.ext
    match a with
    | ⟨0, _⟩ => show win1_0.index t (0 : Fin 2) * 4096 + 1 * (j 0).val = win1_2.index t (0 : Fin 2) * 4096 + 1 * (j 0).val; omega
    | ⟨1, _⟩ => show win1_0.index t (1 : Fin 2) * 256 + 1 * (j 1).val = win1_2.index t (1 : Fin 2) * 256 + 1 * (j 1).val; omega
  have h1 : ((cfg1.win 1).blk t).view.emb (ix2 (0 : Fin 1) (j 1)) = ix2 (0 : Fin 1) ((((cfg1.win 2).blk t).view.emb j) 1) := by
    funext a; apply Fin.ext
    match a with
    | ⟨0, _⟩ => show win1_1.index t (0 : Fin 2) * 1 + 1 * 0 = 0; omega
    | ⟨1, _⟩ => show win1_1.index t (1 : Fin 2) * 256 + 1 * (j 1).val = win1_2.index t (1 : Fin 2) * 256 + 1 * (j 1).val; omega
  rw [h0, h1]
  rfl

/-- An index of the result array is in point `t`'s block iff each coordinate is in the block's range on its axis. -/
theorem mem_blk (t : Fin cfg1.N) (i : S524288x256.Idx) :
    i ∈ ((cfg1.win 2).blk t).view.set ↔ ∀ a : Fin 2, win1_2.index t a * S4096x256.size a ≤ (i a).val ∧ (i a).val < win1_2.index t a * S4096x256.size a + S4096x256.size a := by
  show i ∈ ((View.whole main_v1).slice (win1_2.rect t)).set ↔ _
  rw [View.set_slice_whole, Rect.mem_set_unit]
  exact Iff.rfl

/-- Row `p` lies in the block of point `p / 4096`, and every point writes its block back. -/
theorem covered (i : S524288x256.Idx) :
    ∃ t : Fin cfg1.N, (cfg1.win 2).flush t = true ∧ i ∈ ((cfg1.win 2).blk t).view.set := by
  have hi0 : (i 0).val < 524288 := (i 0).isLt
  have hi1 : (i 1).val < 256 := (i 1).isLt
  have hN : cfg1.N = 128 := N_1
  have ht : (i 0).val / 4096 < cfg1.N := by rw [hN]; omega
  refine ⟨⟨(i 0).val / 4096, ht⟩, flush1_2 _, ?_⟩
  rw [mem_blk]
  obtain ⟨-, -, -, -, e4, e5⟩ := idx_facts ⟨(i 0).val / 4096, ht⟩
  have e4' : win1_2.index ⟨(i 0).val / 4096, ht⟩ (0 : Fin 2) = (i 0).val / 4096 := e4
  intro a
  match a with
  | ⟨0, _⟩ =>
    show win1_2.index ⟨(i 0).val / 4096, ht⟩ (0 : Fin 2) * 4096 ≤ (i 0).val ∧ (i 0).val < win1_2.index ⟨(i 0).val / 4096, ht⟩ (0 : Fin 2) * 4096 + 4096
    rw [e4']; omega
  | ⟨1, _⟩ =>
    show win1_2.index ⟨(i 0).val / 4096, ht⟩ (1 : Fin 2) * 256 ≤ (i 1).val ∧ (i 1).val < win1_2.index ⟨(i 0).val / 4096, ht⟩ (1 : Fin 2) * 256 + 256
    rw [e5]; omega

/-- The result array after the region: `scaleOf` of the operand arrays as the region finds them. -/
theorem final (c : Dev nD) : (dat1 V c).arrAt 2 cfg1.N = scaleOf (V c main_arg0) (V c main_v0) :=
  (dat1 V c).arrAt_eq_of_cover 2 (scaleOf (V c main_arg0) (V c main_v0)) (fun t _ => flushed_eq V c t) covered

/-- At the exact instance, at row `p` and column `q`: the entry times the reciprocal square root of the row vector's
    entry in column `q`, as extended reals. -/
theorem scaleOf_apply (a : FVec Ideal S524288x256 .f32) (n : FVec Ideal S1x256 .f32) (p : Fin 524288) (q : Fin 256) :
    scaleOf (F := Ideal) a n (ix2 p q) = a (ix2 p q) * Ideal.rsqrt (n (ix2 (0 : Fin 1) q)) := rfl

end Cert.KernelIdeal.Scale

end
-- ==== Proof.Spec.lean ====
/-
  The mathematics of the column-normalisation kernel, with no program in sight.

  For an array `x` of 524288 rows and 256 columns, the result at row `p`, column `q` is
  `x p q · rsqrt (z + ∑ₖ x k q · x k q)`, the sum over all 524288 rows and `z` the value the accumulator starts from.
  The kernel reaches the sum as 128 consecutive runs of 4096 rows; the reference takes it in one piece. Over the
  extended reals the two are the same number, because addition there is commutative and associative (no finiteness
  is needed): `sum_range_blocks` is that regrouping for any additive commutative monoid, and `colSq_blocks` is
  its instance for a column's squares.
-/
import Mathlib.Algebra.BigOperators.Group.Finset.Basic
import Mathlib.Algebra.BigOperators.Fin
import Idealize.ShloMosaic.Lib.ValueIdx
import Idealize.ShloMosaic.PureOps.Ideal

noncomputable section

namespace Cert.ColNorm

open Idealize.ShloMosaic Idealize.ShloMosaic.ValueIdx

/-- A sum over `n * m` consecutive naturals is the sum of `m` consecutive runs of length `n`:
    run `s` holds the naturals `n * s, …, n * s + (n - 1)`. -/
theorem sum_range_blocks {β : Type*} [AddCommMonoid β] (n : ℕ) (f : ℕ → β) :
    ∀ m : ℕ, ∑ s ∈ Finset.range m, ∑ r ∈ Finset.range n, f (n * s + r) = ∑ k ∈ Finset.range (n * m), f k
  | 0 => by rw [Finset.sum_range_zero, Nat.mul_zero, Finset.sum_range_zero]
  | m + 1 => by
    rw [Finset.sum_range_succ, sum_range_blocks n f m, Nat.mul_succ, Finset.sum_range_add]

/-- The shape of the argument and of the result: 524288 rows, 256 columns. -/
abbrev SX : Shape := ⟨2, ![524288, 256]⟩

/-- The square of column `q`'s entry in row `k`, as a function of every natural `k` (zero past the last row, where
    no sum below ever looks). -/
def sqAt (x : FVec Ideal SX .f32) (q : Fin 256) (k : ℕ) : EReal :=
  if h : k < 524288 then x (ix2 ⟨k, h⟩ q) * x (ix2 ⟨k, h⟩ q) else 0

theorem sqAt_of_lt (x : FVec Ideal SX .f32) (q : Fin 256) (k : ℕ) (h : k < 524288) :
    sqAt x q k = x (ix2 ⟨k, h⟩ q) * x (ix2 ⟨k, h⟩ q) := dif_pos h

/-- Column `q`'s sum of squares over all rows, on top of the starting value `z`. -/
def colSq (z : EReal) (x : FVec Ideal SX .f32) (q : Fin 256) : EReal :=
  z + ∑ k ∈ Finset.range 524288, sqAt x q k

/-- The same number reached block by block: 128 blocks of 4096 rows, block `s` holding rows `4096 s … 4096 s + 4095`. -/
theorem colSq_blocks (z : EReal) (x : FVec Ideal SX .f32) (q : Fin 256) :
    z + ∑ s ∈ Finset.range 128, ∑ r ∈ Finset.range 4096, sqAt x q (4096 * s + r) = colSq z x q := by
  unfold colSq
  rw [sum_range_blocks 4096 (sqAt x q) 128]

/-- The result: every entry times the reciprocal square root of its column's sum of squares. -/
def scaled (z : EReal) (x : FVec Ideal SX .f32) : FVec Ideal SX .f32 :=
  fun i => x i * Ideal.rsqrt (colSq z x (i 1))

theorem scaled_apply (z : EReal) (x : FVec Ideal SX .f32) (p : Fin 524288) (q : Fin 256) :
    scaled z x (ix2 p q) = x (ix2 p q) * Ideal.rsqrt (colSq z x q) := rfl

end Cert.ColNorm

end
-- ==== Proof.ColSum.lean ====
/-
  The first region: a (1, 256) row that is never moved between the 128 grid points accumulates, column by column,
  the sum of squares of each 4096-row block of the operand. At the first point the row is reset to the zero row and
  the first block's column sums of squares are added; at every later point the block's column sums are added to what
  the point before left. The row is written back once, after the last point, and its one block is the whole result
  array of the region.

  So the array ends holding the running row after point 127, and at the exact instance that row's entry in
  column `q` is `z + ∑ₛ ∑ᵣ a (4096 s + r, q)²` over the 128 blocks `s` and the 4096 rows `r` of a block, `z` the
  zero word's value and `a` the operand array as the region finds it.
-/
import proofs.«148555_j38027640438785_1_alg».proof.Proof.Gen.KernelIdeal.Frame
import proofs.«148555_j38027640438785_1_alg».proof.Proof.Spec
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

noncomputable section

namespace Cert.KernelIdeal.ColSum

open Idealize.ShloMosaic Idealize.ShloMosaic.TcCoe Idealize.SL.Sem Idealize.ShloMosaic.ValueIdx
open Idealize.ShloMosaic.Pipeline (Dat)
open Cert.KernelIdeal Cert.KernelIdeal.Gen Cert.ColNorm

/-! ## What each point leaves in the row, at any float instance -/

section Generic

variable {F : FTy → Type} [FloatOps F]
variable (V : (c : Dev nD) → (b : Ref sig .tc) → Buf (Elt F) ((c : Thread nD τ).loc b))

theorem offs_zero : (![0, 0] : Fin 2 → Nat) = fun _ => 0 := funext fun a => by fin_cases a <;> rfl

/-- A later point: the row holding `acc` ends at the update of `acc` by the block `a` — its one store covers the row,
    and its loads read the whole buffers. -/
theorem later_point (c : Dev nD) (i : grid0.Coords) (a1 : Memref sig .tc .vmem S4096x256 .f32) (h1 : a1.IsWhole)
    (a2 : Memref sig .tc .vmem S1x256 .f32) (h2 : a2.IsWhole) (hc : ¬cond0_0 i) (a : Vec F S4096x256 .f32) (acc : Vec F S1x256 .f32) :
    out0_B_1 c i a1 h1 a2 h2 hc a acc = k0_pay2 acc a a := by
  unfold out0_B_1
  rw [View.read_writes_eq_canon _ _ _ (cover0_B_1 c i a1 h1 a2 h2 hc a acc)]
  unfold kernelRun0_B
  dsimp only
  sl_unfold_words
  rw [View.canon_unit_zero offs_zero]
  simp only [View.readAt_eq_ld, h1.read_unread, h2.read_unread, View.ld_unit_zero (S := S4096x256) offs_zero,
    View.ld_unit_zero (S := S1x256) offs_zero]

/-- The first point: the row is reset to the zero row, read back, and ends at the update of the zero row by the block. -/
theorem first_point (c : Dev nD) (i : grid0.Coords) (a1 : Memref sig .tc .vmem S4096x256 .f32) (h1 : a1.IsWhole)
    (a2 : Memref sig .tc .vmem S1x256 .f32) (h2 : a2.IsWhole) (hc : cond0_0 i) (a : Vec F S4096x256 .f32) :
    out0_A_1 c i a1 h1 a2 h2 hc a = k0_pay2 (k0_pay1 (F := F)) a a := by
  unfold out0_A_1
  rw [View.read_writes_eq_canon _ _ _ (cover0_A_1 c i a1 h1 a2 h2 hc a)]
  unfold kernelRun0_A
  dsimp only
  sl_unfold_words
  rw [View.canon_cons_unit_zero (S := S1x256) offs_zero, View.readCov_unit_zero (S := S1x256) _ offs_zero]
  simp only [View.readAt_eq_ld, h1.read_unread, View.ld_unit_zero (S := S4096x256) offs_zero,
    View.ld_unit_zero (S := S1x256) offs_zero]

/-- The running row after point `n`: the zero row updated by block 0, then by blocks 1, …, `n` in turn. -/
def running (c : Dev nD) : (n : ℕ) → n < cfg0.N → Vec F S1x256 .f32
  | 0, h => k0_pay2 (k0_pay1 (F := F)) (iblk0 V c 0 ⟨0, h⟩) (iblk0 V c 0 ⟨0, h⟩)
  | n + 1, h => k0_pay2 (running c n (Nat.lt_of_succ_lt h)) (iblk0 V c 0 ⟨n + 1, h⟩) (iblk0 V c 0 ⟨n + 1, h⟩)

/-- What the row's buffer holds after point `n` is the running row, by induction on the point. -/
theorem outsAt_eq (c : Dev nD) : ∀ (n : ℕ) (h : n < cfg0.N), outsAt0 V c n h = running V c n h
  | 0, h => (outsAt0_A V c ⟨0, h⟩ rfl).trans (first_point ..)
  | n + 1, h => by
    have hN : cfg0.N = 128 := N_0
    have hB : ¬(⟨n + 1, h⟩ : Fin cfg0.N).val % 128 = 0 := by dsimp only; omega
    rw [outsAt0_B V c ⟨n + 1, h⟩ hB, later_point]
    show k0_pay2 (outsAt0 V c n _) _ _ = k0_pay2 (running V c n _) _ _
    rw [outsAt_eq c n]

/-- The last point. -/
abbrev lastPt : Fin cfg0.N := ⟨127, by rw [show cfg0.N = 128 from N_0]; decide⟩

/-- The row after the last point, as contents of the region's result array (its one block is the array). -/
abbrev total (c : Dev nD) : Buf (Elt F) ((c : Thread nD τ).loc main_v0) := running V c 127 lastPt.isLt

/-- The one write-back, after point 127, writes it: block (0, 0) of the (1, 256) array at zero offsets is the array. -/
theorem flushed_eq (c : Dev nD) (t : Fin cfg0.N) (hf : (cfg0.win 1).flush t = true) :
    (dat0 V c).flushed 1 t = ((cfg0.win 1).blk t).view.read (Elt F) (total V c) := by
  have hN : cfg0.N = 128 := N_0
  have h127 : t.val = 127 := by have := (flush0_1 t).mp hf; have := t.isLt; omega
  obtain rfl : t = lastPt := Fin.ext h127
  show (cfg0.win 1).cut (grid0.coords lastPt) ((dat0 V c).after 1 lastPt) = _
  rw [after0_1, outsAt_eq]
  have hz' : (fun a => win0_1.index lastPt a * main_v0.ty.shape.size a) = fun _ => 0 := funext fun a => by fin_cases a <;> decide
  exact (Memref.read_access_unit_zero (Elt F) main_v0 hz' (fun a => by rw [congrFun hz' a]; simp) (total V c)).symm

/-- So the region's result array ends holding the row after the last point: that point's block covers the array. -/
theorem final (c : Dev nD) : (dat0 V c).arrAt 1 cfg0.N = total V c :=
  (dat0 V c).arrAt_eq_of_cover 1 (total V c) (flushed_eq V c) fun i =>
    ⟨lastPt, (flush0_1 lastPt).mpr rfl, by
      show i ∈ ((View.whole main_v0).slice (win0_1.rect lastPt)).set
      rw [View.set_slice_whole, Rect.mem_set_unit]
      intro a
      have h0 : (i 0 : Nat) < 1 := (i 0).isLt
      have h1 : (i 1 : Nat) < 256 := (i 1).isLt
      match a with
      | ⟨0, _⟩ => show win0_1.index lastPt 0 * win0_1.size 0 ≤ (i 0 : Nat) ∧ (i 0 : Nat) < win0_1.index lastPt 0 * win0_1.size 0 + win0_1.xsize (grid0.coords lastPt) 0
                  rw [show win0_1.index lastPt 0 * win0_1.size 0 = 0 from by decide +kernel, show win0_1.xsize (grid0.coords lastPt) 0 = 1 from by decide +kernel]; omega
      | ⟨1, _⟩ => show win0_1.index lastPt 1 * win0_1.size 1 ≤ (i 1 : Nat) ∧ (i 1 : Nat) < win0_1.index lastPt 1 * win0_1.size 1 + win0_1.xsize (grid0.coords lastPt) 1
                  rw [show win0_1.index lastPt 1 * win0_1.size 1 = 0 from by decide +kernel, show win0_1.xsize (grid0.coords lastPt) 1 = 256 from by decide +kernel]; omega⟩

end Generic

/-! ## The running row at an index, at the exact instance -/

section Exact

variable (V : (c : Dev nD) → (b : Ref sig .tc) → Buf (Elt Ideal) ((c : Thread nD τ).loc b))

/-- One update read at column `q`: the row's entry plus the sum over the block's 4096 rows of the squared entries of
    that column (the lane-direction sum of the products, the reduced axis being the rows). -/
theorem update_apply (acc : FVec Ideal S1x256 .f32) (a : FVec Ideal S4096x256 .f32) (u : Fin 1) (q : Fin 256) :
    k0_pay2 (F := Ideal) acc a a (ix2 u q) = acc (ix2 u q) + ∑ r : Fin 4096, a (ix2 r q) * a (ix2 r q) := by
  unfold k0_pay2
  show shapeCast S1x256 acc shapeCasts_S1x256_S1x256 (ix2 u q)
      + shapeCast S1x256 (multiReduction .add [0] S256 (mulf a a) 0x00000000#32 reduces_S4096x256_S256 (.inl rfl) rfl)
          shapeCasts_S256_S1x256 (ix2 u q) = _
  rw [shapeCast_self, shapeCast_a_1a_apply]
  refine congrArg (acc (ix2 u q) + ·) ?_
  refine (Ideal.multiReduction_add_single (mulf a a) 0x00000000#32 reduces_S4096x256_S256 (.inl rfl) rfl (ix1 q)).trans ?_
  refine Finset.sum_congr rfl fun r _ => ?_
  have e : reduces_S4096x256_S256.lift (ix1 q) r = ix2 r q :=
    funext fun d => Fin.ext (by match d with | ⟨0, _⟩ => rfl | ⟨1, _⟩ => rfl)
  rw [e]
  rfl

/-- The operand's block at point `t` and the operand array as the region finds it, named at their literal types (the
    arithmetic below is on their entries). -/
abbrev blockAt (c : Dev nD) (t : Fin cfg0.N) : FVec Ideal S4096x256 .f32 := iblk0 V c 0 t
abbrev operand (c : Dev nD) : FVec Ideal S524288x256 .f32 := V c main_arg0

/-- Where the operand's blocks sit, decided over the 128 points: block `t` is block row `t`, block column 0. -/
theorem idx_facts : ∀ t : Fin cfg0.N, win0_0.index t (0 : Fin 2) = t.val ∧ win0_0.index t (1 : Fin 2) = 0 :=
  (by decide +kernel : ∀ t : Fin grid0.N, _)

/-- Entry `(r, q)` of the operand's block at point `t` is the array's entry in row `4096 t + r`, column `q`. -/
theorem block_apply (c : Dev nD) (t : Fin cfg0.N) (r : Fin 4096) (q : Fin 256) (hk : 4096 * t.val + r.val < 524288) :
    blockAt V c t (ix2 r q) = operand V c (ix2 ⟨4096 * t.val + r.val, hk⟩ q) := by
  obtain ⟨e0, e1⟩ := idx_facts t
  show V c main_arg0 (((cfg0.win 0).blk t).view.emb (ix2 r q)) = V c main_arg0 (ix2 ⟨4096 * t.val + r.val, hk⟩ q)
  refine congrArg (V c main_arg0) ?_
  funext a; apply Fin.ext
  match a with
  | ⟨0, _⟩ => show win0_0.index t (0 : Fin 2) * 4096 + 1 * r.val = 4096 * t.val + r.val; omega
  | ⟨1, _⟩ => show win0_0.index t (1 : Fin 2) * 256 + 1 * q.val = q.val; omega

/-- The block's column sum of squares is the sum of the array's squares over the block's rows. -/
theorem block_sum (c : Dev nD) (t : Fin cfg0.N) (q : Fin 256) :
    ∑ r : Fin 4096, blockAt V c t (ix2 r q) * blockAt V c t (ix2 r q)
      = ∑ r ∈ Finset.range 4096, sqAt (operand V c) q (4096 * t.val + r) := by
  have hN : cfg0.N = 128 := N_0
  have ht : t.val < 128 := lt_of_lt_of_eq t.isLt hN
  rw [← Fin.sum_univ_eq_sum_range (fun r => sqAt (operand V c) q (4096 * t.val + r)) 4096]
  refine Finset.sum_congr rfl fun r _ => ?_
  have hk : 4096 * t.val + r.val < 524288 := by have := r.isLt; omega
  rw [block_apply V c t r q hk, sqAt_of_lt _ q _ hk]

/-- The running row's entry in column `q` after point `n`: the zero word's value plus the sums of squares of the
    blocks 0, …, `n` of that column — by induction on the point, the partial sums re-associated one step at a time. -/
theorem running_apply (c : Dev nD) (u : Fin 1) (q : Fin 256) : ∀ (n : ℕ) (h : n < cfg0.N),
    running V c n h (ix2 u q)
      = Ideal.ofBits .f32 0x00000000#32
        + ∑ s ∈ Finset.range (n + 1), ∑ r ∈ Finset.range 4096, sqAt (operand V c) q (4096 * s + r)
  | 0, h => by
    show k0_pay2 (F := Ideal) (k0_pay1 (F := Ideal)) (blockAt V c ⟨0, h⟩) (blockAt V c ⟨0, h⟩) (ix2 u q) = _
    refine (update_apply (k0_pay1 (F := Ideal)) (blockAt V c ⟨0, h⟩) u q).trans ?_
    rw [Finset.sum_range_one]
    exact congrArg (Ideal.ofBits .f32 0x00000000#32 + ·) (block_sum V c ⟨0, h⟩ q)
  | n + 1, h => by
    show k0_pay2 (F := Ideal) (running V c n (Nat.lt_of_succ_lt h)) (blockAt V c ⟨n + 1, h⟩) (blockAt V c ⟨n + 1, h⟩) (ix2 u q) = _
    refine (update_apply (running V c n (Nat.lt_of_succ_lt h)) (blockAt V c ⟨n + 1, h⟩) u q).trans ?_
    rw [running_apply c u q n (Nat.lt_of_succ_lt h), Finset.sum_range_succ _ (n + 1), add_assoc]
    exact congrArg (fun z => Ideal.ofBits .f32 0x00000000#32 + (_ + z)) (block_sum V c ⟨n + 1, h⟩ q)

/-- The row after the last point is, column by column, the whole array's sum of squares on top of the zero word's
    value: 128 blocks of 4096 rows are the 524288 rows. -/
theorem total_apply (c : Dev nD) (u : Fin 1) (q : Fin 256) :
    total V c (ix2 u q) = colSq (Ideal.ofBits .f32 0x00000000#32) (operand V c) q :=
  (running_apply V c u q 127 lastPt.isLt).trans (colSq_blocks _ _ q)

end Exact

end Cert.KernelIdeal.ColSum

end
-- ==== Proof.KernelValue.lean ====
/-
  The kernel's two regions joined. The second region finds the argument array as launched (the first region only
  reads it) and finds, in the array between the regions, the first region's row of column sums of squares. Its result
  is every entry times the reciprocal square root of its column's entry of that row; so, at the exact instance, the
  program's result array ends holding the specification's function of the argument:
  `out (p, q) = x (p, q) · rsqrt (z + ∑ₖ x (k, q)²)`, `z` the zero word's value.
-/
import proofs.«148555_j38027640438785_1_alg».proof.Proof.KernelRun
import proofs.«148555_j38027640438785_1_alg».proof.Proof.Scale
import proofs.«148555_j38027640438785_1_alg».proof.Proof.ColSum
import proofs.«148555_j38027640438785_1_alg».proof.Proof.Spec

noncomputable section

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen Cert.ColNorm

variable (m : (ℓ : Loc nD τ sig) → Buf (Elt Ideal) ℓ) (ρ : Dev nD → PrngReg)

/-- The argument array as launched, at its literal type. -/
abbrev arg (c : Dev nD) : FVec Ideal S524288x256 .f32 := m ((c : Thread nD τ).loc main_arg0)

/-- The second region finds the argument as launched: the first region's window on it is an input. -/
theorem arg_between (c : Dev nD) : V1 m ρ c main_arg0 = arg m c :=
  (W1_arr m ρ c 0).trans (((dat0 (V0 m ρ) c).arrAt_in 0 rfl _).trans (A_eq0 (V0 m ρ) c 0))

/-- The second region finds, in the array between the regions, the first region's row after its last point. -/
theorem row_between (c : Dev nD) : V1 m ρ c main_v0 = ColSum.total (V0 m ρ) c :=
  (W1_arr m ρ c 1).trans (ColSum.final (V0 m ρ) c)

/-- The result array after the run is the specification's function of the argument. -/
theorem result_eq (c : Dev nD) :
    W2 m ρ c (Proc.devRef .tc main_v1) = scaled (Ideal.ofBits .f32 0x00000000#32) (arg m c) := by
  refine (W2_arr m ρ c 2).trans ((Scale.final (V1 m ρ) c).trans ?_)
  rw [arg_between, row_between]
  funext i
  obtain ⟨p, q, rfl⟩ : ∃ (p : Fin 524288) (q : Fin 256), i = ix2 p q := ⟨i 0, i 1, eq_ix2 i⟩
  refine (Scale.scaleOf_apply (arg m c) (ColSum.total (V0 m ρ) c) p q).trans ?_
  rw [ColSum.total_apply, scaled_apply]

/-- The run, read: the result array at the specification's function of the argument, the argument unchanged. -/
theorem run : θ_run defs (onTc (τ := τ) (main (F := Ideal))) ⟨m, fun _ => 0, ρ⟩ fun r => ∀ c : Dev nD,
      r.2.mem ((c.tc : Thread nD τ).loc main_v1) = scaled (Ideal.ofBits .f32 0x00000000#32) (arg m c)
      ∧ r.2.mem ((c.tc : Thread nD τ).loc main_arg0) = m ((c.tc : Thread nD τ).loc main_arg0) :=
  (θ_run defs _ _).mono (fun _ h c => ⟨(h c).1.trans (result_eq m ρ c), (h c).2⟩)
    (Cert.KernelIdeal.RunValue.run_value (F := Ideal) m ρ)

end Cert.KernelIdeal.Result

end
-- ==== Proof.RefValue.lean ====
/-
  The reference computes the specification. Its last stage at an index `(p, q)` is `x p q` times the host's
  reciprocal square root of `0 + ∑ₖ x k q · x k q` (the sum over axis 0 read at column `q`, then broadcast back over the
  rows); at the exact instance the host's reciprocal square root is the one function `Ideal.rsqrt`, and the sum
  over the rows `k : Fin 524288` is the sum over the naturals below 524288 of the specification.
-/
import proofs.«148555_j38027640438785_1_alg».proof.Proof.Gen.ReferenceIdeal.Read
import proofs.«148555_j38027640438785_1_alg».proof.Proof.Spec
import Idealize.ShloMosaic.Lib.ValueIdx
import Idealize.ShloMosaic.PureOps.Ideal.Laws

noncomputable section

namespace Cert.ColNorm.Ref

open Idealize.ShloMosaic Idealize.ShloMosaic.ValueIdx Cert.ReferenceIdeal Cert.ReferenceIdeal.Read Cert.ColNorm

/-- Row `k` of column `q`, as the reference's reduction indexes it when its result is read at the column of `(p, q)`. -/
theorem idx_row (p : Fin 524288) (q : Fin 256) (k : Fin 524288) :
    idx_main_v1 (idx_main_v3 (idx_main_v4 (ix2 p q))) k = ix2 k q :=
  funext fun a => Fin.ext (by match a with | ⟨0, _⟩ => rfl | ⟨1, _⟩ => rfl)

/-- The reference's result is the specification's, from the zero the reduction starts at. -/
theorem val_eq_scaled (x : FVec Ideal SX .f32) :
    val_main_v5 (F := Ideal) x = scaled (Ideal.ofBits .f32 0x00000000#32) x := by
  funext i
  obtain ⟨p, q, rfl⟩ : ∃ (p : Fin 524288) (q : Fin 256), i = ix2 p q := ⟨i 0, i 1, eq_ix2 i⟩
  rw [val_main_v5_apply, val_main_v4_apply, val_main_v3_apply, val_main_v2_apply, val_main_v1_apply, scaled_apply]
  simp only [val_main_cst_apply, val_main_v0_apply, Ideal.mulf_def, Ideal.hostUnary_rsqrt_def, Ideal.ofBits_def]
  unfold colSq
  rw [← Fin.sum_univ_eq_sum_range (fun k => sqAt x q k) 524288]
  refine congrArg (fun s => x (ix2 p q) * Ideal.rsqrt (Ideal.ofBits .f32 0x00000000#32 + s)) (Finset.sum_congr rfl fun k _ => ?_)
  rw [idx_row, sqAt_of_lt x q k.val k.isLt]

end Cert.ColNorm.Ref

end
-- ==== Proof.lean ====
/-
  Column normalisation: `out (p, q) = x (p, q) · rsqrt (∑ₖ x (k, q)²)` over an array of 524288 rows and 256 columns.

  The kernel takes the column sums of squares in a first region, 4096 rows at a time into one resident row, and
  scales the array by their reciprocal square roots in a second region; the reference takes each column's sum in
  one reduction. Over the extended reals a sum does not depend on how it is grouped, the reciprocal square root is one
  function on both sides, and the only literal is the zero both sums start from: the two results are one function of
  the argument (`Cert.ColNorm.scaled`). The precondition is never opened: no step needs finiteness.

  The three frames are the generated frame certificates (the reference's is its generated run with the result
  dropped); the idealization rewrote nothing, so `preserves` is trivial; `algebraic` puts the kernel's run
  (`Cert.KernelIdeal.Result.run`) beside the reference's generated run read as the same function
  (`Cert.ColNorm.Ref.val_eq_scaled`).
-/
import proofs.«148555_j38027640438785_1_alg».proof.Defs
import proofs.«148555_j38027640438785_1_alg».proof.Proof.Gen.Kernel
import proofs.«148555_j38027640438785_1_alg».proof.Proof.Gen.Kernel.Skeleton
import proofs.«148555_j38027640438785_1_alg».proof.Proof.Gen.Kernel.Launch
import proofs.«148555_j38027640438785_1_alg».proof.Proof.Gen.Kernel.Points
import proofs.«148555_j38027640438785_1_alg».proof.Proof.Gen.Kernel.Frame
import proofs.«148555_j38027640438785_1_alg».proof.Proof.Gen.KernelIdeal
import proofs.«148555_j38027640438785_1_alg».proof.Proof.Gen.KernelIdeal.Skeleton
import proofs.«148555_j38027640438785_1_alg».proof.Proof.Gen.KernelIdeal.Launch
import proofs.«148555_j38027640438785_1_alg».proof.Proof.Gen.KernelIdeal.Points
import proofs.«148555_j38027640438785_1_alg».proof.Proof.Gen.KernelIdeal.Frame
import proofs.«148555_j38027640438785_1_alg».proof.Proof.Gen.ReferenceIdeal
import proofs.«148555_j38027640438785_1_alg».proof.Proof.Gen.ReferenceIdeal.Run
import proofs.«148555_j38027640438785_1_alg».proof.Proof.Gen.ReferenceIdeal.Read
import proofs.«148555_j38027640438785_1_alg».proof.Proof.Gen.Pre_finite_inputs
import proofs.«148555_j38027640438785_1_alg».proof.Proof.KernelValue
import proofs.«148555_j38027640438785_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the exact instance the kernel's result array ends at the specification's function of its argument, and the
    reference's at its last stage of an argument that agrees, which is the same function. -/
theorem algebraic : Cert.algebraic_KernelIdeal_ReferenceIdeal := by
  intro m ρ m' ρ' _ hagree
  refine ⟨fun c => Cert.ColNorm.scaled (Ideal.ofBits .f32 0x00000000#32) (Cert.KernelIdeal.Result.arg m c),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ColNorm.Ref.val_eq_scaled, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
